-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Stages.lean ====
/-
  The graph-convolution layer's host stages as functions of their inputs, written once over the reference's
  shape records: the edge list with a self-loop per node appended (`srcOf`, `dstOf`), Python's wrap of a negative
  index (`wrap`), the in-degree as a scatter-add of ones (`deg`), its inverse square root where positive
  (`dinv`), the symmetric normalisation of an edge (`normOf`: dinv at its source times dinv at its target), and the
  aggregation of a feature matrix `h`: gather rows at the sources, scale each by the edge's normalisation,
  scatter-add into the targets (`agg128`, `agg64`; `aggOn…` over given index and scale vectors). Both programs apply exactly these stages; only what
  they aggregate is computed differently.
-/
import proofs.«129796_j25752623907118_1_alg».proof.Proof.Gen.ReferenceIdeal

noncomputable section

namespace Cert.Gcn

open Cert.ReferenceIdeal Cert.ReferenceIdeal.Facts₀ Idealize.ShloMosaic

variable {F : FTy → Type} [FloatOps F]

/-- Edge sources, one self-loop per node appended. -/
def srcOf (E : (⟨S2x800000, .i32⟩ : BufTy).Contents (Elt F)) : (⟨S850000, .i32⟩ : BufTy).Contents (Elt F) :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- Edge targets, one self-loop per node appended. -/
def dstOf (E : (⟨S2x800000, .i32⟩ : BufTy).Contents (Elt F)) : (⟨S850000, .i32⟩ : BufTy).Contents (Elt F) :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- A negative node index counted from the end. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The in-degree of every node: ones scatter-added at the targets. -/
def deg (E : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstOf (F := F) E)) (broadcastInDim S850000 ![] bcast_S_S850000 (constant S_ .f32 0x3F800000#32))

/-- Its inverse square root where the degree is positive, zero elsewhere. -/
def dinv (E : (⟨S2x800000, .i32⟩ : BufTy).Contents (Elt F)) : (⟨S50000, .f32⟩ : BufTy).Contents (Elt F) :=
  select (cmpf (F := F) .ogt (deg (F := F) E) (broadcastInDim S50000 ![] bcast_S_S50000 (constant S_ .f32 0x00000000#32))) (Host.rsqrt (deg (F := F) E)) (broadcastInDim S50000 ![] bcast_S_S50000 (id (constant S_ .f32 0x00000000#32)))

/-- An edge's normalisation: the inverse root degrees of its two ends multiplied. -/
def normOn (src dst : (⟨S850000, .i32⟩ : BufTy).Contents (Elt F)) (d : (⟨S50000, .f32⟩ : BufTy).Contents (Elt F)) : (⟨S850000, .f32⟩ : BufTy).Contents (Elt F) :=
  mulf (Host.gather gather_S50000_S850000x1_S850000_n_0_n_n_0_1_1 d (broadcastInDim S850000x1 ![0] bcast_S850000_S850000x1_0 (wrap (F := F) src))) (Host.gather gather_S50000_S850000x1_S850000_n_0_n_n_0_1_1 d (broadcastInDim S850000x1 ![0] bcast_S850000_S850000x1_0 (wrap (F := F) dst)))

def normOf (E : (⟨S2x800000, .i32⟩ : BufTy).Contents (Elt F)) : (⟨S850000, .f32⟩ : BufTy).Contents (Elt F) :=
  normOn (F := F) (srcOf (F := F) E) (dstOf (F := F) E) (dinv (F := F) E)

/-- Aggregation of 128 features per node over given edge ends and edge scales. -/
def aggOn128 (src dst : (⟨S850000, .i32⟩ : BufTy).Contents (Elt F)) (nrm : (⟨S850000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (wrap (F := F) src))) (broadcastInDim S850000x128 ![0, 1] bcast_S850000x1_S850000x128_0_1 (broadcastInDim S850000x1 ![0] bcast_S850000_S850000x1_0 nrm)))

/-- Aggregation of 64 features per node over given edge ends and edge scales. -/
def aggOn64 (src dst : (⟨S850000, .i32⟩ : BufTy).Contents (Elt F)) (nrm : (⟨S850000, .f32⟩ : BufTy).Contents (Elt F)) (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrap (F := F) src))) (broadcastInDim S850000x64 ![0, 1] bcast_S850000x1_S850000x64_0_1 (broadcastInDim S850000x1 ![0] bcast_S850000_S850000x1_0 nrm)))

def agg128 (E : (⟨S2x800000, .i32⟩ : BufTy).Contents (Elt F)) (h : (⟨S50000x128, .f32⟩ : BufTy).Contents (Elt F)) : (⟨S50000x128, .f32⟩ : BufTy).Contents (Elt F) :=
  aggOn128 (F := F) (srcOf (F := F) E) (dstOf (F := F) E) (normOf (F := F) E) h

def agg64 (E : (⟨S2x800000, .i32⟩ : BufTy).Contents (Elt F)) (h : (⟨S50000x64, .f32⟩ : BufTy).Contents (Elt F)) : (⟨S50000x64, .f32⟩ : BufTy).Contents (Elt F) :=
  aggOn64 (F := F) (srcOf (F := F) E) (dstOf (F := F) E) (normOf (F := F) E) h

end Cert.Gcn

end
-- ==== Proof.HostReadA.lean ====
/-
  The kernel program's first stretch of host operations (18 of them, before the call of jnp.where) read at the buffers
  later stretches use, from ANY contents `Wv` of the buffers before it: the edge ends with self-loops, whether a
  node's degree is positive, the inverse root of the degree, the zero that fills the other nodes; an argument array
  is not written. Each is the stage of the same name over the edge list as `Wv` holds it.
-/
import proofs.«129796_j25752623907118_1_alg».proof.Proof.Gen.KernelIdeal.Launch
import proofs.«129796_j25752623907118_1_alg».proof.Proof.Stages
import Idealize.ShloMosaic.Lib.StableHlo.Run

set_option maxRecDepth 16384

noncomputable section

namespace Cert.KernelIdeal.HostReadA

open Cert.KernelIdeal Cert.KernelIdeal.Gen Cert.Gcn
open Idealize.ShloMosaic Idealize.ShloMosaic.TcCoe Idealize.SL.Sem Idealize.ShloMosaic.StableHlo

variable {F : FTy → Type} [FloatOps F]
variable (Wv : Valuation τ sig (Elt F))

theorem src : StableHlo.after hostOps0 Wv (Proc.devRef .tc main_v5) = srcOf (F := F) (Wv (Proc.devRef .tc main_arg1)) := by
  dsimp only [hostOps0]; after_results; rfl
theorem dst : StableHlo.after hostOps0 Wv (Proc.devRef .tc main_v6) = dstOf (F := F) (Wv (Proc.devRef .tc main_arg1)) := by
  dsimp only [hostOps0]; after_results; rfl
set_option maxHeartbeats 4000000 in
theorem pos : StableHlo.after hostOps0 Wv (Proc.devRef .tc main_v12) = cmpf (F := F) .ogt (deg (F := F) (Wv (Proc.devRef .tc main_arg1))) (broadcastInDim Cert.ReferenceIdeal.S50000 ![] Cert.ReferenceIdeal.Facts₀.bcast_S_S50000 (constant Cert.ReferenceIdeal.S_ .f32 0x00000000#32)) := by
  dsimp only [hostOps0]; after_results; rfl
set_option maxHeartbeats 4000000 in
theorem invRoot : StableHlo.after hostOps0 Wv (Proc.devRef .tc main_v13) = Host.rsqrt (deg (F := F) (Wv (Proc.devRef .tc main_arg1))) := by
  dsimp only [hostOps0]; after_results; rfl
theorem zero : StableHlo.after hostOps0 Wv (Proc.devRef .tc main_cst_2) = constant (F := F) Cert.ReferenceIdeal.S_ .f32 0x00000000#32 := by
  dsimp only [hostOps0]; after_results
theorem arg0 : StableHlo.after hostOps0 Wv (Proc.devRef .tc main_arg0) = Wv (Proc.devRef .tc main_arg0) := by
  dsimp only [hostOps0]; after_results
theorem arg2 : StableHlo.after hostOps0 Wv (Proc.devRef .tc main_arg2) = Wv (Proc.devRef .tc main_arg2) := by
  dsimp only [hostOps0]; after_results
theorem arg3 : StableHlo.after hostOps0 Wv (Proc.devRef .tc main_arg3) = Wv (Proc.devRef .tc main_arg3) := by
  dsimp only [hostOps0]; after_results
theorem arg4 : StableHlo.after hostOps0 Wv (Proc.devRef .tc main_arg4) = Wv (Proc.devRef .tc main_arg4) := by
  dsimp only [hostOps0]; after_results
theorem arg5 : StableHlo.after hostOps0 Wv (Proc.devRef .tc main_arg5) = Wv (Proc.devRef .tc main_arg5) := by
  dsimp only [hostOps0]; after_results

end Cert.KernelIdeal.HostReadA

end
-- ==== Proof.HostReadB.lean ====
/-
  The kernel program's second and third stretches of host operations (jnp.where's three, then the nineteen that
  normalise the edges) read from ANY contents `Wv` of the buffers before them: the inverse root degree is chosen where
  the degree is positive and zero elsewhere; an edge's normalisation is that vector at its two ends multiplied
  (`normOn` of the edge ends and the vector as `Wv` holds them); the edge ends and the argument arrays are not written.
-/
import proofs.«129796_j25752623907118_1_alg».proof.Proof.Gen.KernelIdeal.Launch
import proofs.«129796_j25752623907118_1_alg».proof.Proof.Stages
import Idealize.ShloMosaic.Lib.StableHlo.Run

set_option maxRecDepth 16384

noncomputable section

namespace Cert.KernelIdeal.HostReadB

open Cert.KernelIdeal Cert.KernelIdeal.Gen Cert.Gcn
open Idealize.ShloMosaic Idealize.ShloMosaic.TcCoe Idealize.SL.Sem Idealize.ShloMosaic.StableHlo

variable {F : FTy → Type} [FloatOps F]
variable (Wv : Valuation τ sig (Elt F))

/-! ## jnp.where -/

theorem chosen : StableHlo.after hostOps0_1 Wv (Proc.devRef .tc main_v14)
    = select (Wv (Proc.devRef .tc main_v12)) (Wv (Proc.devRef .tc main_v13)) (broadcastInDim Cert.ReferenceIdeal.S50000 ![] Cert.ReferenceIdeal.Facts₀.bcast_S_S50000 (id (Wv (Proc.devRef .tc main_cst_2)))) := by
  dsimp only [hostOps0_1]; after_results; rfl
theorem w_v5 : StableHlo.after hostOps0_1 Wv (Proc.devRef .tc main_v5) = Wv (Proc.devRef .tc main_v5) := by
  dsimp only [hostOps0_1]; after_results
theorem w_v6 : StableHlo.after hostOps0_1 Wv (Proc.devRef .tc main_v6) = Wv (Proc.devRef .tc main_v6) := by
  dsimp only [hostOps0_1]; after_results
theorem w_arg0 : StableHlo.after hostOps0_1 Wv (Proc.devRef .tc main_arg0) = Wv (Proc.devRef .tc main_arg0) := by
  dsimp only [hostOps0_1]; after_results
theorem w_arg2 : StableHlo.after hostOps0_1 Wv (Proc.devRef .tc main_arg2) = Wv (Proc.devRef .tc main_arg2) := by
  dsimp only [hostOps0_1]; after_results
theorem w_arg3 : StableHlo.after hostOps0_1 Wv (Proc.devRef .tc main_arg3) = Wv (Proc.devRef .tc main_arg3) := by
  dsimp only [hostOps0_1]; after_results
theorem w_arg4 : StableHlo.after hostOps0_1 Wv (Proc.devRef .tc main_arg4) = Wv (Proc.devRef .tc main_arg4) := by
  dsimp only [hostOps0_1]; after_results
theorem w_arg5 : StableHlo.after hostOps0_1 Wv (Proc.devRef .tc main_arg5) = Wv (Proc.devRef .tc main_arg5) := by
  dsimp only [hostOps0_1]; after_results

/-! ## The edges' normalisation -/

set_option maxHeartbeats 4000000 in
theorem norm : StableHlo.after hostOps0_2 Wv (Proc.devRef .tc main_v29)
    = normOn (F := F) (Wv (Proc.devRef .tc main_v5)) (Wv (Proc.devRef .tc main_v6)) (Wv (Proc.devRef .tc main_v14)) := by
  dsimp only [hostOps0_2]; after_results; rfl
theorem n_v5 : StableHlo.after hostOps0_2 Wv (Proc.devRef .tc main_v5) = Wv (Proc.devRef .tc main_v5) := by
  dsimp only [hostOps0_2]; after_results
theorem n_v6 : StableHlo.after hostOps0_2 Wv (Proc.devRef .tc main_v6) = Wv (Proc.devRef .tc main_v6) := by
  dsimp only [hostOps0_2]; after_results
theorem n_arg0 : StableHlo.after hostOps0_2 Wv (Proc.devRef .tc main_arg0) = Wv (Proc.devRef .tc main_arg0) := by
  dsimp only [hostOps0_2]; after_results
theorem n_arg2 : StableHlo.after hostOps0_2 Wv (Proc.devRef .tc main_arg2) = Wv (Proc.devRef .tc main_arg2) := by
  dsimp only [hostOps0_2]; after_results
theorem n_arg3 : StableHlo.after hostOps0_2 Wv (Proc.devRef .tc main_arg3) = Wv (Proc.devRef .tc main_arg3) := by
  dsimp only [hostOps0_2]; after_results
theorem n_arg4 : StableHlo.after hostOps0_2 Wv (Proc.devRef .tc main_arg4) = Wv (Proc.devRef .tc main_arg4) := by
  dsimp only [hostOps0_2]; after_results
theorem n_arg5 : StableHlo.after hostOps0_2 Wv (Proc.devRef .tc main_arg5) = Wv (Proc.devRef .tc main_arg5) := by
  dsimp only [hostOps0_2]; after_results

end Cert.KernelIdeal.HostReadB

end
-- ==== Proof.HostReadC.lean ====
/-
  The kernel program's two aggregation stretches of host operations (seventeen each: after the first dense product and
  after the second) read from ANY contents `Wv` of the buffers before them: the product's rows gathered at the edge
  sources, scaled by the edges' normalisation and scatter-added at the targets (`aggOn128`, `aggOn64` of the edge
  ends, the normalisation and the product as `Wv` holds them), and the bias vector reshaped to one row; the edge
  ends, the normalisation and the later arguments are not written by the first of them.
-/
import proofs.«129796_j25752623907118_1_alg».proof.Proof.Gen.KernelIdeal.Launch
import proofs.«129796_j25752623907118_1_alg».proof.Proof.Stages
import Idealize.ShloMosaic.Lib.StableHlo.Run

set_option maxRecDepth 16384

noncomputable section

namespace Cert.KernelIdeal.HostReadC

open Cert.KernelIdeal Cert.KernelIdeal.Gen Cert.Gcn
open Idealize.ShloMosaic Idealize.ShloMosaic.TcCoe Idealize.SL.Sem Idealize.ShloMosaic.StableHlo

variable {F : FTy → Type} [FloatOps F]
variable (Wv : Valuation τ sig (Elt F))

/-! ## After the first dense product -/

set_option maxHeartbeats 4000000 in
theorem agg1 : StableHlo.after hostOps1 Wv (Proc.devRef .tc main_v43)
      = aggOn128 (F := F) (Wv (Proc.devRef .tc main_v5)) (Wv (Proc.devRef .tc main_v6)) (Wv (Proc.devRef .tc main_v29)) (Wv (Proc.devRef .tc main_v30)) := by
  dsimp only [hostOps1]; after_results; rfl
theorem row1 : StableHlo.after hostOps1 Wv (Proc.devRef .tc main_v44)
      = shapeCast S1x128 (Wv (Proc.devRef .tc main_arg3)) shapeCasts_S128_S1x128 := by
  dsimp only [hostOps1]; after_results; rfl
theorem a_v5 : StableHlo.after hostOps1 Wv (Proc.devRef .tc main_v5) = Wv (Proc.devRef .tc main_v5) := by
  dsimp only [hostOps1]; after_results
theorem a_v6 : StableHlo.after hostOps1 Wv (Proc.devRef .tc main_v6) = Wv (Proc.devRef .tc main_v6) := by
  dsimp only [hostOps1]; after_results
theorem a_v29 : StableHlo.after hostOps1 Wv (Proc.devRef .tc main_v29) = Wv (Proc.devRef .tc main_v29) := by
  dsimp only [hostOps1]; after_results
theorem a_arg4 : StableHlo.after hostOps1 Wv (Proc.devRef .tc main_arg4) = Wv (Proc.devRef .tc main_arg4) := by
  dsimp only [hostOps1]; after_results
theorem a_arg5 : StableHlo.after hostOps1 Wv (Proc.devRef .tc main_arg5) = Wv (Proc.devRef .tc main_arg5) := by
  dsimp only [hostOps1]; after_results

/-! ## After the second dense product -/

set_option maxHeartbeats 4000000 in
theorem agg2 : StableHlo.after hostOps3 Wv (Proc.devRef .tc main_v59)
      = aggOn64 (F := F) (Wv (Proc.devRef .tc main_v5)) (Wv (Proc.devRef .tc main_v6)) (Wv (Proc.devRef .tc main_v29)) (Wv (Proc.devRef .tc main_v46)) := by
  dsimp only [hostOps3]; after_results; rfl
theorem row2 : StableHlo.after hostOps3 Wv (Proc.devRef .tc main_v60)
      = shapeCast S1x64 (Wv (Proc.devRef .tc main_arg5)) shapeCasts_S64_S1x64 := by
  dsimp only [hostOps3]; after_results; rfl

end Cert.KernelIdeal.HostReadC

end
-- ==== Proof.Dense1.lean ====
/-
  The first dense product, x · W1, computed in five row blocks of 10000 rows: what the array holds after the region.
  A block entry (r, q) is the sum over k of the x-block's (r, k) times W1's (k, q) (the kernel's matmul into a zero
  accumulator, its narrowing of the operands the identity on exact values); the x-block at point t is rows
  10000·t … of x and W1 is fetched whole, so the entry is the product's entry (10000·t + r, q). The five blocks
  tile the 50000 rows, so the whole array ends holding `prod1 x W1`.
-/
import proofs.«129796_j25752623907118_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem
open Idealize.ShloMosaic.Pipeline (Dat Cfg Window)
open Idealize.ShloMosaic.ValueIdx

theorem hz : (![0, 0] : Fin 2 → Nat) = fun _ => 0 := funext fun a => by fin_cases a <;> rfl

/-- Inside a block: the left operand's entry (row of j, k) and the right operand's (k, column of j). -/
abbrev lixB (j : S10000x128.Idx) (k : Fin 128) : S10000x128.Idx := fun a => match a with
  | ⟨0, _⟩ => ⟨(j 0).val, (j 0).isLt⟩
  | ⟨1, _⟩ => ⟨k.val, k.isLt⟩
abbrev rixB (j : S10000x128.Idx) (k : Fin 128) : S128x128.Idx := fun a => match a with
  | ⟨0, _⟩ => ⟨k.val, k.isLt⟩
  | ⟨1, _⟩ => ⟨(j 1).val, (j 1).isLt⟩

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at a block entry: the sum over the inner index of the two loaded blocks' products. -/
theorem stored_apply (x0 : Vec Ideal S10000x128 .f32) (x1 : Vec Ideal S128x128 .f32) (j : S10000x128.Idx) :
    k0_pay1 (F := Ideal) x0 x1 j = ∑ k : Fin 128, x0 (lixB j k) * x1 (rixB j k) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = lixB j k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = rixB j k := funext fun a => Fin.ext (by
    match a with
    | ⟨0, _⟩ => exact (rhs_0 _ _).trans hk
    | ⟨1, _⟩ => exact rhs_1 _ _)
  rw [el, er]
  rfl

/-- In the whole arrays: the entries an output entry i sums over. -/
abbrev lixA (i : S50000x128.Idx) (k : Fin 128) : S50000x128.Idx := fun a => match a with
  | ⟨0, _⟩ => ⟨(i 0).val, (i 0).isLt⟩
  | ⟨1, _⟩ => ⟨k.val, k.isLt⟩
abbrev rixA (i : S50000x128.Idx) (k : Fin 128) : S128x128.Idx := fun a => match a with
  | ⟨0, _⟩ => ⟨k.val, k.isLt⟩
  | ⟨1, _⟩ => ⟨(i 1).val, (i 1).isLt⟩

/-- The product of a 50000×128 matrix with a 128×128 one, entry by entry, on the extended reals. -/
def prod1 (X : S50000x128.Idx → EReal) (W : S128x128.Idx → EReal) : S50000x128.Idx → EReal :=
  fun i => ∑ k : Fin 128, X (lixA i k) * W (rixA i k)

/-- The printed index maps over the grid: the row block moves with the point, every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the five row blocks is some point's. -/
theorem idx_onto : ∀ (q0 : Fin 5), ∃ t : Fin cfg0.N, win0_2.index t = ![q0.val, 0] :=
  (by decide +kernel : ∀ (q0 : Fin 5), ∃ t : Fin grid0.N, win0_2.index t = ![q0.val, 0])

variable (V : (c : Dev nD) → (b : Ref sig .tc) → Buf (Elt Ideal) ((c : Thread nD τ).loc b))

/-- What point t writes back is block t of the product of the arrays as the region finds them. -/
theorem flushed_eq (c : Dev nD) (t : Fin cfg0.N) :
    (dat0 (F := Ideal) V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  show k0_pay1 (iblk0 V c 0 t) (iblk0 V c 1 t) j = prod1 (V c main_arg0) (V c main_arg2) (((cfg0.win 2).blk t).view.emb j)
  refine (stored_apply _ _ j).trans ?_
  unfold prod1
  obtain ⟨e0, e1, e2, e3, e4⟩ := idx_facts t
  have h0 : ∀ k : Fin 128, ((cfg0.win 0).blk t).view.emb (lixB j k) = lixA (((cfg0.win 2).blk t).view.emb j) k := fun k => by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ∀ k : Fin 128, ((cfg0.win 1).blk t).view.emb (rixB j k) = rixA (((cfg0.win 2).blk t).view.emb j) k := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have key : ∀ (X : S50000x128.Idx → EReal) (W : S128x128.Idx → EReal),
      (∑ k : Fin 128, X (((cfg0.win 0).blk t).view.emb (lixB j k)) * W (((cfg0.win 1).blk t).view.emb (rixB j k)))
        = ∑ k : Fin 128, X (lixA (((cfg0.win 2).blk t).view.emb j) k) * W (rixA (((cfg0.win 2).blk t).view.emb j) k) := by
    intro X W
    refine Finset.sum_congr rfl fun k _ => ?_
    rw [h0 k, h1 k]
  exact key (V c main_arg0) (V c main_arg2)

/-- An index of the array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r lies in the block of the point r / 10000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array after the region: the product of the two arrays the region was entered with. -/
theorem final (c : Dev nD) : (dat0 (F := Ideal) V c).arrAt 2 cfg0.N = prod1 (V c main_arg0) (V c main_arg2) :=
  (dat0 (F := Ideal) V c).arrAt_eq_of_cover 2 (prod1 (V c main_arg0) (V c main_arg2)) (fun t _ => flushed_eq V c t) cover

end Cert.KernelIdeal.Dense1

end
-- ==== Proof.Dense2.lean ====
/-
  The second dense product, h · W2 (128 inner, 64 columns), computed in five row blocks of 10000 rows: what the array
  holds after the region. A block entry (r, q) is the sum over k of the h-block's (r, k) times W2's (k, q); the
  h-block at point t is rows 10000·t … of h, W2 is fetched whole; the five blocks tile the 50000 rows, so the whole
  array ends holding `prod2 h W2`.
-/
import proofs.«129796_j25752623907118_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

theorem hz : (![0, 0] : Fin 2 → Nat) = fun _ => 0 := funext fun a => by fin_cases a <;> rfl

/-- Inside a block: the left operand's entry (row of j, k) and the right operand's (k, column of j). -/
abbrev lixB (j : S10000x64.Idx) (k : Fin 128) : S10000x128.Idx := fun a => match a with
  | ⟨0, _⟩ => ⟨(j 0).val, (j 0).isLt⟩
  | ⟨1, _⟩ => ⟨k.val, k.isLt⟩
abbrev rixB (j : S10000x64.Idx) (k : Fin 128) : S128x64.Idx := fun a => match a with
  | ⟨0, _⟩ => ⟨k.val, k.isLt⟩
  | ⟨1, _⟩ => ⟨(j 1).val, (j 1).isLt⟩

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at a block entry: the sum over the inner index of the two loaded blocks' products. -/
theorem stored_apply (x0 : Vec Ideal S10000x128 .f32) (x1 : Vec Ideal S128x64 .f32) (j : S10000x64.Idx) :
    k2_pay1 (F := Ideal) x0 x1 j = ∑ k : Fin 128, x0 (lixB j k) * x1 (rixB j k) := by
  unfold k2_pay1
  rw [shapeCast_self]
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lixB j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = rixB j k := funext fun a => Fin.ext (by
    match a with
    | ⟨0, _⟩ => exact (rhs_0 _ _).trans hk
    | ⟨1, _⟩ => exact rhs_1 _ _)
  rw [el, er]
  rfl

/-- In the whole arrays: the entries an output entry i sums over. -/
abbrev lixA (i : S50000x64.Idx) (k : Fin 128) : S50000x128.Idx := fun a => match a with
  | ⟨0, _⟩ => ⟨(i 0).val, (i 0).isLt⟩
  | ⟨1, _⟩ => ⟨k.val, k.isLt⟩
abbrev rixA (i : S50000x64.Idx) (k : Fin 128) : S128x64.Idx := fun a => match a with
  | ⟨0, _⟩ => ⟨k.val, k.isLt⟩
  | ⟨1, _⟩ => ⟨(i 1).val, (i 1).isLt⟩

/-- The product of a 50000×128 matrix with a 128×64 one, entry by entry, on the extended reals. -/
def prod2 (X : S50000x128.Idx → EReal) (W : S128x64.Idx → EReal) : S50000x64.Idx → EReal :=
  fun i => ∑ k : Fin 128, X (lixA i k) * W (rixA i k)

/-- The printed index maps over the grid: the row block moves with the point, every other block index is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the five row blocks is some point's. -/
theorem idx_onto : ∀ (q0 : Fin 5), ∃ t : Fin cfg2.N, win2_2.index t = ![q0.val, 0] :=
  (by decide +kernel : ∀ (q0 : Fin 5), ∃ t : Fin grid2.N, win2_2.index t = ![q0.val, 0])

variable (V : (c : Dev nD) → (b : Ref sig .tc) → Buf (Elt Ideal) ((c : Thread nD τ).loc b))

/-- What point t writes back is block t of the product of the arrays as the region finds them. -/
theorem flushed_eq (c : Dev nD) (t : Fin cfg2.N) :
    (dat2 (F := Ideal) V c).flushed 2 t = ((cfg2.win 2).blk t).view.read (Elt Ideal) (prod2 (V c main_v45) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  funext j
  show k2_pay1 (iblk2 V c 0 t) (iblk2 V c 1 t) j = prod2 (V c main_v45) (V c main_arg4) (((cfg2.win 2).blk t).view.emb j)
  refine (stored_apply _ _ j).trans ?_
  unfold prod2
  obtain ⟨e0, e1, e2, e3, e4⟩ := idx_facts t
  have h0 : ∀ k : Fin 128, ((cfg2.win 0).blk t).view.emb (lixB j k) = lixA (((cfg2.win 2).blk t).view.emb j) k := fun k => by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ∀ k : Fin 128, ((cfg2.win 1).blk t).view.emb (rixB j k) = rixA (((cfg2.win 2).blk t).view.emb j) k := fun k => by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have key : ∀ (X : S50000x128.Idx → EReal) (W : S128x64.Idx → EReal),
      (∑ k : Fin 128, X (((cfg2.win 0).blk t).view.emb (lixB j k)) * W (((cfg2.win 1).blk t).view.emb (rixB j k)))
        = ∑ k : Fin 128, X (lixA (((cfg2.win 2).blk t).view.emb j) k) * W (rixA (((cfg2.win 2).blk t).view.emb j) k) := by
    intro X W
    refine Finset.sum_congr rfl fun k _ => ?_
    rw [h0 k, h1 k]
  exact key (V c main_v45) (V c main_arg4)

/-- An index of the array is in point t's block iff each coordinate is in the block's range on its axis. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r lies in the block of the point r / 10000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array after the region: the product of the two arrays the region was entered with. -/
theorem final (c : Dev nD) : (dat2 (F := Ideal) V c).arrAt 2 cfg2.N = prod2 (V c main_v45) (V c main_arg4) :=
  (dat2 (F := Ideal) V c).arrAt_eq_of_cover 2 (prod2 (V c main_v45) (V c main_arg4)) (fun t _ => flushed_eq V c t) cover

end Cert.KernelIdeal.Dense2

end
-- ==== Proof.BiasRelu.lean ====
/-
  The first layer's epilogue, max(agg + b1, 0) row by row, computed in five row blocks of 10000 rows: what the array
  holds after the region. A block entry (r, q) is max(agg-block (r, q) + b1-row (0, q), 0); the agg-block at point t is
  rows 10000·t … of the aggregated matrix and the 1×128 bias row is fetched whole; the five blocks tile the 50000
  rows, so the whole array ends holding `biasRelu agg b1row`. The zero is kept as the f32 zero word read exactly.
-/
import proofs.«129796_j25752623907118_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen
open Idealize.ShloMosaic Idealize.ShloMosaic.TcCoe Idealize.SL.Sem
open Idealize.ShloMosaic.Pipeline (Dat Cfg Window)
open Idealize.ShloMosaic.ValueIdx

theorem hz : (![0, 0] : Fin 2 → Nat) = fun _ => 0 := funext fun a => by fin_cases a <;> rfl

/-- The bias row's entry that an entry meets: row 0, the same column. -/
abbrev rowB (j : S10000x128.Idx) : S1x128.Idx := fun a => match a with
  | ⟨0, _⟩ => ⟨0, Nat.one_pos⟩
  | ⟨1, _⟩ => ⟨(j 1).val, (j 1).isLt⟩
abbrev rowA (i : S50000x128.Idx) : S1x128.Idx := fun a => match a with
  | ⟨0, _⟩ => ⟨0, Nat.one_pos⟩
  | ⟨1, _⟩ => ⟨(i 1).val, (i 1).isLt⟩

/-- The body's stored value at a block entry. -/
theorem stored_apply (x0 : Vec Ideal S10000x128 .f32) (x1 : Vec Ideal S1x128 .f32) (j : S10000x128.Idx) :
    k1_pay1 (F := Ideal) x0 x1 j = max (x0 j + x1 (rowB j)) (Ideal.ofBits .f32 0x00000000#32) := by
  unfold k1_pay1
  rw [shapeCast_self, shapeCast_self]
  show max (x0 j + broadcastTo S10000x128 x1 broadcasts_S1x128_S10000x128 j) _ = _
  rw [broadcastTo_apply x1 broadcasts_S1x128_S10000x128 j (rowB j) (fun a => by
    match a with
    | ⟨0, _⟩ => rfl
    | ⟨1, _⟩ => rfl)]
  rfl

/-- A matrix plus a bias row, clamped below at zero, entry by entry on the extended reals. -/
def biasRelu (A : S50000x128.Idx → EReal) (B : S1x128.Idx → EReal) : S50000x128.Idx → EReal :=
  fun i => max (A i + B (rowA i)) (Ideal.ofBits .f32 0x00000000#32)

/-- The printed index maps over the grid: the row block moves with the point, every other block index is 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the five row blocks is some point's. -/
theorem idx_onto : ∀ (q0 : Fin 5), ∃ t : Fin cfg1.N, win1_2.index t = ![q0.val, 0] :=
  (by decide +kernel : ∀ (q0 : Fin 5), ∃ t : Fin grid1.N, win1_2.index t = ![q0.val, 0])

variable (V : (c : Dev nD) → (b : Ref sig .tc) → Buf (Elt Ideal) ((c : Thread nD τ).loc b))

/-- What point t writes back is block t of that function of the arrays as the region finds them. -/
theorem flushed_eq (c : Dev nD) (t : Fin cfg1.N) :
    (dat1 (F := Ideal) V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  funext j
  show k1_pay1 (iblk1 V c 0 t) (iblk1 V c 1 t) j = biasRelu (V c main_v43) (V c main_v44) (((cfg1.win 2).blk t).view.emb j)
  refine (stored_apply _ _ j).trans ?_
  unfold biasRelu
  obtain ⟨e0, e1, e2, e3, e4⟩ := idx_facts t
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (rowB j) = rowA (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have key : ∀ (A : S50000x128.Idx → EReal) (B : S1x128.Idx → EReal),
      max (A (((cfg1.win 0).blk t).view.emb j) + B (((cfg1.win 1).blk t).view.emb (rowB j))) (Ideal.ofBits .f32 0x00000000#32)
        = max (A (((cfg1.win 2).blk t).view.emb j) + B (rowA (((cfg1.win 2).blk t).view.emb j))) (Ideal.ofBits .f32 0x00000000#32) := by
    intro A B
    rw [h0, h1]
  exact key (V c main_v43) (V c main_v44)

/-- An index of the array is in point t's block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Row r lies in the block of the point r / 10000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array after the region. -/
theorem final (c : Dev nD) : (dat1 (F := Ideal) V c).arrAt 2 cfg1.N = biasRelu (V c main_v43) (V c main_v44) :=
  (dat1 (F := Ideal) V c).arrAt_eq_of_cover 2 (biasRelu (V c main_v43) (V c main_v44)) (fun t _ => flushed_eq V c t) cover

end Cert.KernelIdeal.BiasRelu

end
-- ==== Proof.Bias2.lean ====
/-
  The second layer's epilogue, agg + b2 row by row (no clamp), computed in five row blocks of 10000 rows: what the
  result array holds after the last region. A block entry (r, q) is agg-block (r, q) + b2-row (0, q); the agg-block
  at point t is rows 10000·t … of the aggregated 50000×64 matrix and the 1×64 bias row is fetched whole; the five
  blocks tile the 50000 rows, so the whole array ends holding `addBias agg b2row`.
-/
import proofs.«129796_j25752623907118_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

theorem hz : (![0, 0] : Fin 2 → Nat) = fun _ => 0 := funext fun a => by fin_cases a <;> rfl

/-- The bias row's entry that an entry meets: row 0, the same column. -/
abbrev rowB (j : S10000x64.Idx) : S1x64.Idx := fun a => match a with
  | ⟨0, _⟩ => ⟨0, Nat.one_pos⟩
  | ⟨1, _⟩ => ⟨(j 1).val, (j 1).isLt⟩
abbrev rowA (i : S50000x64.Idx) : S1x64.Idx := fun a => match a with
  | ⟨0, _⟩ => ⟨0, Nat.one_pos⟩
  | ⟨1, _⟩ => ⟨(i 1).val, (i 1).isLt⟩

/-- The body's stored value at a block entry. -/
theorem stored_apply (x0 : Vec Ideal S10000x64 .f32) (x1 : Vec Ideal S1x64 .f32) (j : S10000x64.Idx) :
    k3_pay1 (F := Ideal) x0 x1 j = x0 j + x1 (rowB j) := by
  unfold k3_pay1
  rw [shapeCast_self, shapeCast_self]
  show x0 j + broadcastTo S10000x64 x1 broadcasts_S1x64_S10000x64 j = _
  rw [broadcastTo_apply x1 broadcasts_S1x64_S10000x64 j (rowB j) (fun a => by
    match a with
    | ⟨0, _⟩ => rfl
    | ⟨1, _⟩ => rfl)]

/-- A matrix plus a bias row, entry by entry on the extended reals. -/
def addBias (A : S50000x64.Idx → EReal) (B : S1x64.Idx → EReal) : S50000x64.Idx → EReal :=
  fun i => A i + B (rowA i)

/-- The printed index maps over the grid: the row block moves with the point, every other block index is 0. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every one of the five row blocks is some point's. -/
theorem idx_onto : ∀ (q0 : Fin 5), ∃ t : Fin cfg3.N, win3_2.index t = ![q0.val, 0] :=
  (by decide +kernel : ∀ (q0 : Fin 5), ∃ t : Fin grid3.N, win3_2.index t = ![q0.val, 0])

variable (V : (c : Dev nD) → (b : Ref sig .tc) → Buf (Elt Ideal) ((c : Thread nD τ).loc b))

/-- What point t writes back is block t of that function of the arrays as the region finds them. -/
theorem flushed_eq (c : Dev nD) (t : Fin cfg3.N) :
    (dat3 (F := Ideal) V c).flushed 2 t = ((cfg3.win 2).blk t).view.read (Elt Ideal) (addBias (V c main_v59) (V c main_v60)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  funext j
  show k3_pay1 (iblk3 V c 0 t) (iblk3 V c 1 t) j = addBias (V c main_v59) (V c main_v60) (((cfg3.win 2).blk t).view.emb j)
  refine (stored_apply _ _ j).trans ?_
  unfold addBias
  obtain ⟨e0, e1, e2, e3, e4⟩ := idx_facts t
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (rowB j) = rowA (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have key : ∀ (A : S50000x64.Idx → EReal) (B : S1x64.Idx → EReal),
      A (((cfg3.win 0).blk t).view.emb j) + B (((cfg3.win 1).blk t).view.emb (rowB j))
        = A (((cfg3.win 2).blk t).view.emb j) + B (rowA (((cfg3.win 2).blk t).view.emb j)) := by
    intro A B
    rw [h0, h1]
  exact key (V c main_v59) (V c main_v60)

/-- An index of the array is in point t's block iff each coordinate is in the block's range on its axis. -/
theorem mem_blk (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row r lies in the block of the point r / 10000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array after the region. -/
theorem final (c : Dev nD) : (dat3 (F := Ideal) V c).arrAt 2 cfg3.N = addBias (V c main_v59) (V c main_v60) :=
  (dat3 (F := Ideal) V c).arrAt_eq_of_cover 2 (addBias (V c main_v59) (V c main_v60)) (fun t _ => flushed_eq V c t) cover

end Cert.KernelIdeal.Bias2

end
-- ==== Proof.Bridge.lean ====
/-
  The two programs' networks as ONE function of the six argument arrays.
  `refNet` is the reference's composition of host operations: two layers of (dense product, aggregation over the
  edges, bias), the first followed by a clamp at zero. `net` is the same composition with the four dense stages the
  kernel computes on the TensorCore written entry by entry (`prod1`, `biasRelu`, `prod2`, `addBias`) and the bias
  vectors reshaped to one row. They are equal on the extended reals: the host's dot_general at an entry is the sum
  over the inner index of the products; a row broadcast down 50000 rows read at (r, q) is the row's (0, q); a vector
  placed on axis 1 of a [1, n] array is its reshape; the splat zero reads as the f32 zero word everywhere.
-/
import proofs.«129796_j25752623907118_1_alg».proof.Proof.Stages
import proofs.«129796_j25752623907118_1_alg».proof.Proof.Dense1
import proofs.«129796_j25752623907118_1_alg».proof.Proof.Dense2
import proofs.«129796_j25752623907118_1_alg».proof.Proof.BiasRelu
import proofs.«129796_j25752623907118_1_alg».proof.Proof.Bias2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.ReferenceIdeal Cert.ReferenceIdeal.Facts₀ Idealize.ShloMosaic Idealize.ShloMosaic.ValueIdx
open Cert.KernelIdeal (Dense1.prod1 Dense2.prod2 BiasRelu.biasRelu Bias2.addBias)

/-- The reference's network on whole arrays, at any float family. -/
def refNet {F : FTy → Type} [FloatOps F]
    (X : (⟨S50000x128, .f32⟩ : BufTy).Contents (Elt F)) (E : (⟨S2x800000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S50000x64, .f32⟩ : BufTy).Contents (Elt F) :=
  addf (agg64 (F := F) E (Host.dotGeneral dot_S50000x128_S128x64_S50000x64_1_0_0_1_n_n none (maximumf (addf (agg128 (F := F) E (Host.dotGeneral dot_S50000x128_S128x128_S50000x128_1_0_0_1_n_n none X W1)) (broadcastInDim S50000x128 ![0, 1] bcast_S1x128_S50000x128_0_1 (broadcastInDim S1x128 ![1] bcast_S128_S1x128_1 b1))) (broadcastInDim S50000x128 ![] bcast_S_S50000x128 (constant S_ .f32 0x00000000#32))) W2)) (broadcastInDim S50000x64 ![0, 1] bcast_S1x64_S50000x64_0_1 (broadcastInDim S1x64 ![1] bcast_S64_S1x64_1 b2))

/-- The network with its four dense stages written entry by entry. -/
def net (X : (⟨S50000x128, .f32⟩ : BufTy).Contents (Elt Ideal)) (E : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal)) :
    (⟨S50000x64, .f32⟩ : BufTy).Contents (Elt Ideal) :=
  Cert.KernelIdeal.Bias2.addBias (agg64 (F := Ideal) E (Cert.KernelIdeal.Dense2.prod2 (Cert.KernelIdeal.BiasRelu.biasRelu (agg128 (F := Ideal) E (Cert.KernelIdeal.Dense1.prod1 X W1)) (shapeCast Cert.KernelIdeal.S1x128 b1 Cert.KernelIdeal.Facts₀.shapeCasts_S128_S1x128)) W2)) (shapeCast Cert.KernelIdeal.S1x64 b2 Cert.KernelIdeal.Facts₀.shapeCasts_S64_S1x64)

/-! ## The first dense product -/

theorem lhs1_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs1_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs1_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs1_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's dot_general of a 50000×128 by a 128×128 matrix is the product entry by entry. -/
theorem dot1_eq (X : FVec Ideal S50000x128 .f32) (W : FVec Ideal S128x128 .f32) :
    Host.dotGeneral (F := Ideal) dot_S50000x128_S128x128_S50000x128_1_0_0_1_n_n none X W = Cert.KernelIdeal.Dense1.prod1 X W := by
  funext i
  unfold Cert.KernelIdeal.Dense1.prod1
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = Cert.KernelIdeal.Dense1.lixA i k := funext fun a => Fin.ext (by
    match a with
    | ⟨0, _⟩ => exact lhs1_0 _ _
    | ⟨1, _⟩ => exact (lhs1_1 _ _).trans hk)
  have er : dot_S50000x128_S128x128_S50000x128_1_0_0_1_n_n.rhsIdx i ((ValueIdx.contrEquiv1 dot_S50000x128_S128x128_S50000x128_1_0_0_1_n_n 128 rfl rfl).symm k) = Cert.KernelIdeal.Dense1.rixA i k := funext fun a => Fin.ext (by
    match a with
    | ⟨0, _⟩ => exact (rhs1_0 _ _).trans hk
    | ⟨1, _⟩ => exact rhs1_1 _ _)
  rw [el, er]

/-! ## The second dense product -/

theorem lhs2_0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs2_1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem rhs2_0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem rhs2_1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's dot_general of a 50000×128 by a 128×64 matrix is the product entry by entry. -/
theorem dot2_eq (X : FVec Ideal S50000x128 .f32) (W : FVec Ideal S128x64 .f32) :
    Host.dotGeneral (F := Ideal) dot_S50000x128_S128x64_S50000x64_1_0_0_1_n_n none X W = Cert.KernelIdeal.Dense2.prod2 X W := by
  funext i
  unfold Cert.KernelIdeal.Dense2.prod2
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = Cert.KernelIdeal.Dense2.lixA i k := funext fun a => Fin.ext (by
    match a with
    | ⟨0, _⟩ => exact lhs2_0 _ _
    | ⟨1, _⟩ => exact (lhs2_1 _ _).trans hk)
  have er : dot_S50000x128_S128x64_S50000x64_1_0_0_1_n_n.rhsIdx i ((ValueIdx.contrEquiv1 dot_S50000x128_S128x64_S50000x64_1_0_0_1_n_n 128 rfl rfl).symm k) = Cert.KernelIdeal.Dense2.rixA i k := funext fun a => Fin.ext (by
    match a with
    | ⟨0, _⟩ => exact (rhs2_0 _ _).trans hk
    | ⟨1, _⟩ => exact rhs2_1 _ _)
  rw [el, er]

/-! ## The bias rows -/

/-- A 128-vector placed on axis 1 of a [1, 128] array is its reshape. -/
theorem row128_eq (b : (⟨S128, .f32⟩ : BufTy).Contents (Elt Ideal)) :
    broadcastInDim S1x128 ![1] bcast_S128_S1x128_1 b = shapeCast Cert.KernelIdeal.S1x128 b Cert.KernelIdeal.Facts₀.shapeCasts_S128_S1x128 := by
  funext y
  obtain ⟨u, q, rfl⟩ : ∃ (u : Fin 1) (q : Fin 128), y = ix2 u q := ⟨y 0, y 1, eq_ix2 y⟩
  rw [shapeCast_a_1a_apply]
  exact broadcastInDim_apply ![1] bcast_S128_S1x128_1 b (ix2 u q) (ix1 q) (fun a => by
    match a with
    | ⟨0, _⟩ => show q.val = if (128 : ℕ) = 1 then 0 else q.val; rw [if_neg (by decide)])

/-- A 64-vector placed on axis 1 of a [1, 64] array is its reshape. -/
theorem row64_eq (b : (⟨S64, .f32⟩ : BufTy).Contents (Elt Ideal)) :
    broadcastInDim S1x64 ![1] bcast_S64_S1x64_1 b = shapeCast Cert.KernelIdeal.S1x64 b Cert.KernelIdeal.Facts₀.shapeCasts_S64_S1x64 := by
  funext y
  obtain ⟨u, q, rfl⟩ : ∃ (u : Fin 1) (q : Fin 64), y = ix2 u q := ⟨y 0, y 1, eq_ix2 y⟩
  rw [shapeCast_a_1a_apply]
  exact broadcastInDim_apply ![1] bcast_S64_S1x64_1 b (ix2 u q) (ix1 q) (fun a => by
    match a with
    | ⟨0, _⟩ => show q.val = if (64 : ℕ) = 1 then 0 else q.val; rw [if_neg (by decide)])

/-- Adding a row broadcast down the rows and clamping at the splat zero is `biasRelu`. -/
theorem relu1_eq (A : FVec Ideal S50000x128 .f32) (B : FVec Ideal S1x128 .f32) :
    maximumf (addf A (broadcastInDim S50000x128 ![0, 1] bcast_S1x128_S50000x128_0_1 B)) (broadcastInDim S50000x128 ![] bcast_S_S50000x128 (constant (F := Ideal) S_ .f32 0x00000000#32))
      = Cert.KernelIdeal.BiasRelu.biasRelu A B := by
  funext i
  unfold Cert.KernelIdeal.BiasRelu.biasRelu
  show max (A i + broadcastInDim S50000x128 ![0, 1] bcast_S1x128_S50000x128_0_1 B i) (broadcastInDim S50000x128 ![] bcast_S_S50000x128 (constant (F := Ideal) S_ .f32 0x00000000#32) i) = _
  rw [broadcastInDim_apply ![0, 1] bcast_S1x128_S50000x128_0_1 B i (Cert.KernelIdeal.BiasRelu.rowA i) (fun a => by
    match a with
    | ⟨0, _⟩ => rfl
    | ⟨1, _⟩ => show (i 1).val = if (128 : ℕ) = 1 then 0 else (i 1).val; rw [if_neg (by decide)]),
    broadcastInDim_apply ![] bcast_S_S50000x128 (constant (F := Ideal) S_ .f32 0x00000000#32) i ix0 (fun a => a.elim0)]
  rfl

/-- Adding a row broadcast down the rows is `addBias`. -/
theorem bias2_eq (A : FVec Ideal S50000x64 .f32) (B : FVec Ideal S1x64 .f32) :
    addf A (broadcastInDim S50000x64 ![0, 1] bcast_S1x64_S50000x64_0_1 B) = Cert.KernelIdeal.Bias2.addBias A B := by
  funext i
  unfold Cert.KernelIdeal.Bias2.addBias
  show A i + broadcastInDim S50000x64 ![0, 1] bcast_S1x64_S50000x64_0_1 B i = _
  rw [broadcastInDim_apply ![0, 1] bcast_S1x64_S50000x64_0_1 B i (Cert.KernelIdeal.Bias2.rowA i) (fun a => by
    match a with
    | ⟨0, _⟩ => rfl
    | ⟨1, _⟩ => show (i 1).val = if (64 : ℕ) = 1 then 0 else (i 1).val; rw [if_neg (by decide)])]

/-! ## The two networks are one function -/

theorem refNet_eq (X : (⟨S50000x128, .f32⟩ : BufTy).Contents (Elt Ideal)) (E : (⟨S2x800000, .i32⟩ : BufTy).Contents (Elt Ideal))
    (W1 : (⟨S128x128, .f32⟩ : BufTy).Contents (Elt Ideal)) (b1 : (⟨S128, .f32⟩ : BufTy).Contents (Elt Ideal))
    (W2 : (⟨S128x64, .f32⟩ : BufTy).Contents (Elt Ideal)) (b2 : (⟨S64, .f32⟩ : BufTy).Contents (Elt Ideal)) :
    refNet (F := Ideal) X E W1 b1 W2 b2 = net X E W1 b1 W2 b2 := by
  unfold refNet net
  rw [dot1_eq, row128_eq, relu1_eq, dot2_eq, row64_eq, bias2_eq]

end Cert.Gcn

end
-- ==== Proof.KernelValue.lean ====
/-
  The idealized kernel program's result array as the network of its six arguments: the contents of the buffers at
  each boundary between @main's segments, walked from the launch to the return.
  Before the first region the host has the edge ends with self-loops, and the edges' normalisation; the first region
  leaves x · W1 (Dense1); the next stretch aggregates it over the edges and reshapes b1 to a row; the second region
  leaves max(that + b1, 0) (BiasRelu); the third region leaves its product with W2 (Dense2); the last stretch
  aggregates that and reshapes b2; the last region adds b2 (Bias2). A buffer no segment writes keeps its contents
  across the segment. The composition is `net` by definition.
-/
import proofs.«129796_j25752623907118_1_alg».proof.Proof.Gen.KernelIdeal.Frame
import proofs.«129796_j25752623907118_1_alg».proof.Proof.HostReadA
import proofs.«129796_j25752623907118_1_alg».proof.Proof.HostReadB
import proofs.«129796_j25752623907118_1_alg».proof.Proof.HostReadC
import proofs.«129796_j25752623907118_1_alg».proof.Proof.Dense1
import proofs.«129796_j25752623907118_1_alg».proof.Proof.Dense2
import proofs.«129796_j25752623907118_1_alg».proof.Proof.BiasRelu
import proofs.«129796_j25752623907118_1_alg».proof.Proof.Bias2
import proofs.«129796_j25752623907118_1_alg».proof.Proof.Bridge

set_option maxRecDepth 16384

noncomputable section

namespace Cert.KernelIdeal.Walk

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem b3_src : W3 m ρ c (Proc.devRef .tc main_v5) = srcOf (F := Ideal) (m ((c : Thread nD τ).loc main_arg1)) := by
  show StableHlo.after hostOps0_2 (StableHlo.after hostOps0_1 (StableHlo.after hostOps0 (W0 m ρ c))) (Proc.devRef .tc main_v5) = _
  rw [HostReadB.n_v5, HostReadB.w_v5, HostReadA.src]
theorem b3_dst : W3 m ρ c (Proc.devRef .tc main_v6) = dstOf (F := Ideal) (m ((c : Thread nD τ).loc main_arg1)) := by
  show StableHlo.after hostOps0_2 (StableHlo.after hostOps0_1 (StableHlo.after hostOps0 (W0 m ρ c))) (Proc.devRef .tc main_v6) = _
  rw [HostReadB.n_v6, HostReadB.w_v6, HostReadA.dst]
theorem b3_norm : W3 m ρ c (Proc.devRef .tc main_v29) = normOf (F := Ideal) (m ((c : Thread nD τ).loc main_arg1)) := by
  show StableHlo.after hostOps0_2 (StableHlo.after hostOps0_1 (StableHlo.after hostOps0 (W0 m ρ c))) (Proc.devRef .tc main_v29) = _
  rw [HostReadB.norm, HostReadB.w_v5, HostReadB.w_v6, HostReadB.chosen, HostReadA.src, HostReadA.dst, HostReadA.pos, HostReadA.invRoot, HostReadA.zero]
  unfold normOf dinv
  rfl
theorem b3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  rw [HostReadB.n_arg0, HostReadB.w_arg0, HostReadA.arg0]
theorem b3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  rw [HostReadB.n_arg2, HostReadB.w_arg2, HostReadA.arg2]
theorem b3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  rw [HostReadB.n_arg3, HostReadB.w_arg3, HostReadA.arg3]
theorem b3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  rw [HostReadB.n_arg4, HostReadB.w_arg4, HostReadA.arg4]
theorem b3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  rw [HostReadB.n_arg5, HostReadB.w_arg5, HostReadA.arg5]

/-! ## At the first region's exit: the first dense product -/

theorem b4_v30 : W4 m ρ c (Proc.devRef .tc main_v30) = Dense1.prod1 (m ((c : Thread nD τ).loc main_arg0)) (m ((c : Thread nD τ).loc main_arg2)) :=
  (W4_arr m ρ c 2).trans ((Dense1.final (V3 m ρ) c).trans (congrArg₂ Dense1.prod1 (b3_arg0 m ρ c) (b3_arg2 m ρ c)))
theorem b4_v5 : W4 m ρ c (Proc.devRef .tc main_v5) = srcOf (F := Ideal) (m ((c : Thread nD τ).loc main_arg1)) := (W4_of_ne m ρ c main_v5 (by decide)).trans (b3_src m ρ c)
theorem b4_v6 : W4 m ρ c (Proc.devRef .tc main_v6) = dstOf (F := Ideal) (m ((c : Thread nD τ).loc main_arg1)) := (W4_of_ne m ρ c main_v6 (by decide)).trans (b3_dst m ρ c)
theorem b4_v29 : W4 m ρ c (Proc.devRef .tc main_v29) = normOf (F := Ideal) (m ((c : Thread nD τ).loc main_arg1)) := (W4_of_ne m ρ c main_v29 (by decide)).trans (b3_norm m ρ c)
theorem b4_arg3 : W4 m ρ c (Proc.devRef .tc main_arg3) = (m ((c : Thread nD τ).loc main_arg3)) := (W4_of_ne m ρ c main_arg3 (by decide)).trans (b3_arg3 m ρ c)
theorem b4_arg4 : W4 m ρ c (Proc.devRef .tc main_arg4) = (m ((c : Thread nD τ).loc main_arg4)) := (W4_of_ne m ρ c main_arg4 (by decide)).trans (b3_arg4 m ρ c)
theorem b4_arg5 : W4 m ρ c (Proc.devRef .tc main_arg5) = (m ((c : Thread nD τ).loc main_arg5)) := (W4_of_ne m ρ c main_arg5 (by decide)).trans (b3_arg5 m ρ c)

/-! ## At the second region's entry: the first aggregation, the bias row -/

theorem b5_v43 : W5 m ρ c (Proc.devRef .tc main_v43) = agg128 (F := Ideal) (m ((c : Thread nD τ).loc main_arg1)) (Dense1.prod1 (m ((c : Thread nD τ).loc main_arg0)) (m ((c : Thread nD τ).loc main_arg2))) := by
  show StableHlo.after hostOps1 (W4 m ρ c) (Proc.devRef .tc main_v43) = _
  rw [HostReadC.agg1, b4_v5, b4_v6, b4_v29, b4_v30]
  rfl
theorem b5_v44 : W5 m ρ c (Proc.devRef .tc main_v44) = shapeCast S1x128 (m ((c : Thread nD τ).loc main_arg3)) shapeCasts_S128_S1x128 := by
  show StableHlo.after hostOps1 (W4 m ρ c) (Proc.devRef .tc main_v44) = _
  rw [HostReadC.row1, b4_arg3]
theorem b5_v5 : W5 m ρ c (Proc.devRef .tc main_v5) = srcOf (F := Ideal) (m ((c : Thread nD τ).loc main_arg1)) := by
  show StableHlo.after hostOps1 (W4 m ρ c) (Proc.devRef .tc main_v5) = _
  rw [HostReadC.a_v5, b4_v5]
theorem b5_v6 : W5 m ρ c (Proc.devRef .tc main_v6) = dstOf (F := Ideal) (m ((c : Thread nD τ).loc main_arg1)) := by
  show StableHlo.after hostOps1 (W4 m ρ c) (Proc.devRef .tc main_v6) = _
  rw [HostReadC.a_v6, b4_v6]
theorem b5_v29 : W5 m ρ c (Proc.devRef .tc main_v29) = normOf (F := Ideal) (m ((c : Thread nD τ).loc main_arg1)) := by
  show StableHlo.after hostOps1 (W4 m ρ c) (Proc.devRef .tc main_v29) = _
  rw [HostReadC.a_v29, b4_v29]
theorem b5_arg4 : W5 m ρ c (Proc.devRef .tc main_arg4) = (m ((c : Thread nD τ).loc main_arg4)) := by
  show StableHlo.after hostOps1 (W4 m ρ c) (Proc.devRef .tc main_arg4) = _
  rw [HostReadC.a_arg4, b4_arg4]
theorem b5_arg5 : W5 m ρ c (Proc.devRef .tc main_arg5) = (m ((c : Thread nD τ).loc main_arg5)) := by
  show StableHlo.after hostOps1 (W4 m ρ c) (Proc.devRef .tc main_arg5) = _
  rw [HostReadC.a_arg5, b4_arg5]

/-! ## At the second region's exit: the first layer's output -/

theorem b6_v45 : W6 m ρ c (Proc.devRef .tc main_v45)
    = BiasRelu.biasRelu (agg128 (F := Ideal) (m ((c : Thread nD τ).loc main_arg1)) (Dense1.prod1 (m ((c : Thread nD τ).loc main_arg0)) (m ((c : Thread nD τ).loc main_arg2)))) (shapeCast S1x128 (m ((c : Thread nD τ).loc main_arg3)) shapeCasts_S128_S1x128) :=
  (W6_arr m ρ c 2).trans ((BiasRelu.final (V5 m ρ) c).trans (congrArg₂ BiasRelu.biasRelu (b5_v43 m ρ c) (b5_v44 m ρ c)))
theorem b6_v5 : W6 m ρ c (Proc.devRef .tc main_v5) = srcOf (F := Ideal) (m ((c : Thread nD τ).loc main_arg1)) := (W6_of_ne m ρ c main_v5 (by decide)).trans (b5_v5 m ρ c)
theorem b6_v6 : W6 m ρ c (Proc.devRef .tc main_v6) = dstOf (F := Ideal) (m ((c : Thread nD τ).loc main_arg1)) := (W6_of_ne m ρ c main_v6 (by decide)).trans (b5_v6 m ρ c)
theorem b6_v29 : W6 m ρ c (Proc.devRef .tc main_v29) = normOf (F := Ideal) (m ((c : Thread nD τ).loc main_arg1)) := (W6_of_ne m ρ c main_v29 (by decide)).trans (b5_v29 m ρ c)
theorem b6_arg4 : W6 m ρ c (Proc.devRef .tc main_arg4) = (m ((c : Thread nD τ).loc main_arg4)) := (W6_of_ne m ρ c main_arg4 (by decide)).trans (b5_arg4 m ρ c)
theorem b6_arg5 : W6 m ρ c (Proc.devRef .tc main_arg5) = (m ((c : Thread nD τ).loc main_arg5)) := (W6_of_ne m ρ c main_arg5 (by decide)).trans (b5_arg5 m ρ c)

/-! ## At the third region's exit: the second dense product -/

theorem b7_v46 : W7 m ρ c (Proc.devRef .tc main_v46)
    = Dense2.prod2 (BiasRelu.biasRelu (agg128 (F := Ideal) (m ((c : Thread nD τ).loc main_arg1)) (Dense1.prod1 (m ((c : Thread nD τ).loc main_arg0)) (m ((c : Thread nD τ).loc main_arg2)))) (shapeCast S1x128 (m ((c : Thread nD τ).loc main_arg3)) shapeCasts_S128_S1x128)) (m ((c : Thread nD τ).loc main_arg4)) :=
  (W7_arr m ρ c 2).trans ((Dense2.final (V6 m ρ) c).trans (congrArg₂ Dense2.prod2 (b6_v45 m ρ c) (b6_arg4 m ρ c)))
theorem b7_v5 : W7 m ρ c (Proc.devRef .tc main_v5) = srcOf (F := Ideal) (m ((c : Thread nD τ).loc main_arg1)) := (W7_of_ne m ρ c main_v5 (by decide)).trans (b6_v5 m ρ c)
theorem b7_v6 : W7 m ρ c (Proc.devRef .tc main_v6) = dstOf (F := Ideal) (m ((c : Thread nD τ).loc main_arg1)) := (W7_of_ne m ρ c main_v6 (by decide)).trans (b6_v6 m ρ c)
theorem b7_v29 : W7 m ρ c (Proc.devRef .tc main_v29) = normOf (F := Ideal) (m ((c : Thread nD τ).loc main_arg1)) := (W7_of_ne m ρ c main_v29 (by decide)).trans (b6_v29 m ρ c)
theorem b7_arg5 : W7 m ρ c (Proc.devRef .tc main_arg5) = (m ((c : Thread nD τ).loc main_arg5)) := (W7_of_ne m ρ c main_arg5 (by decide)).trans (b6_arg5 m ρ c)

/-! ## At the last region's entry: the second aggregation, the bias row -/

theorem b8_v59 : W8 m ρ c (Proc.devRef .tc main_v59)
    = agg64 (F := Ideal) (m ((c : Thread nD τ).loc main_arg1)) (Dense2.prod2 (BiasRelu.biasRelu (agg128 (F := Ideal) (m ((c : Thread nD τ).loc main_arg1)) (Dense1.prod1 (m ((c : Thread nD τ).loc main_arg0)) (m ((c : Thread nD τ).loc main_arg2)))) (shapeCast S1x128 (m ((c : Thread nD τ).loc main_arg3)) shapeCasts_S128_S1x128)) (m ((c : Thread nD τ).loc main_arg4))) := by
  show StableHlo.after hostOps3 (W7 m ρ c) (Proc.devRef .tc main_v59) = _
  rw [HostReadC.agg2, b7_v5, b7_v6, b7_v29, b7_v46]
  rfl
theorem b8_v60 : W8 m ρ c (Proc.devRef .tc main_v60) = shapeCast S1x64 (m ((c : Thread nD τ).loc main_arg5)) shapeCasts_S64_S1x64 := by
  show StableHlo.after hostOps3 (W7 m ρ c) (Proc.devRef .tc main_v60) = _
  rw [HostReadC.row2, b7_arg5]

/-! ## At the return: the result -/

/-- The result buffer at the last boundary holds the network of the six arguments as launched. -/
theorem result_eq : W9 m ρ c (Proc.devRef .tc main_v61) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Bias2.final (V8 m ρ) c).trans (congrArg₂ Bias2.addBias (b8_v59 m ρ c) (b8_v60 m ρ c)))

end Cert.KernelIdeal.Walk

end
-- ==== Proof.RefValue.lean ====
/-
  The reference's result read as the network: the run's composed term of the six arguments is, stage by stage,
  `refNet` of them (the same host operations, grouped), which on the extended reals is `net`.
-/
import proofs.«129796_j25752623907118_1_alg».proof.Proof.RefRunP
import proofs.«129796_j25752623907118_1_alg».proof.Proof.Bridge

set_option maxRecDepth 16384

noncomputable section

namespace Cert.ReferenceIdeal.RefValue

open Cert.ReferenceIdeal Cert.ReferenceIdeal.Gen Cert.Gcn
open Idealize.ShloMosaic Idealize.ShloMosaic.TcCoe Idealize.SL.Sem

/-- The run's composed result term is the reference's network of the arguments' launch contents: the same text, grouped. -/
theorem res_eq {F : FTy → Type} [FloatOps F] (m : (ℓ : Loc nD τ sig) → Buf (Elt F) ℓ) (c : Dev nD) :
    Cert.ReferenceIdeal.ValueP.res_main_v94 (F := F) m c
      = refNet (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v94 refNet agg64 agg128 aggOn64 aggOn128 normOf normOn dinv deg wrap srcOf dstOf
  with_reducible rfl

/-- The reference's run with its result at the network of the arguments, the arguments unchanged. -/
theorem run_net (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun r h c => ⟨(h c).1.trans ((res_eq (F := Ideal) m c).trans (refNet_eq _ _ _ _ _ _)), (h c).2⟩)
    (Cert.ReferenceIdeal.ValueP.run (F := Ideal) m ρ)

end Cert.ReferenceIdeal.RefValue

end
-- ==== Proof.lean ====
/-
  A two-layer graph convolution: each layer is a dense product, an aggregation over the edges (rows gathered at the
  edge sources, scaled by the symmetric degree normalisation, scatter-added at the targets) and a bias, the first
  layer clamped at zero. The kernel program computes the two products and the two bias stages on the TensorCore in
  five row blocks each and everything else on the host; the reference computes everything on the host.

  On the extended reals both end with the same array, `net` of the six arguments: a product computed block by block
  is the whole product (a block's entry is the same sum over the inner index; the narrowing of the operands is the
  identity on exact values), adding a broadcast bias row is adding the row's entry of the same column, and the host
  stages between are literally the same operations of the same values. No law of arithmetic beyond that is used, so
  the precondition is never opened. The frames of the two kernel programs are the generated ones; the reference's is
  its run with the result dropped; the idealization rewrote nothing.
-/
import proofs.«129796_j25752623907118_1_alg».proof.Defs
import proofs.«129796_j25752623907118_1_alg».proof.Proof.Gen.Kernel
import proofs.«129796_j25752623907118_1_alg».proof.Proof.Gen.Kernel.Frame
import proofs.«129796_j25752623907118_1_alg».proof.Proof.Gen.KernelIdeal
import proofs.«129796_j25752623907118_1_alg».proof.Proof.Gen.KernelIdeal.Frame
import proofs.«129796_j25752623907118_1_alg».proof.Proof.Gen.ReferenceIdeal
import proofs.«129796_j25752623907118_1_alg».proof.Proof.Gen.Pre_finite_inputs
import proofs.«129796_j25752623907118_1_alg».proof.Proof.KernelRun
import proofs.«129796_j25752623907118_1_alg».proof.Proof.KernelValue
import proofs.«129796_j25752623907118_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefValue.run_net m ρ)

/-- Both idealized programs end at `net` of the arguments, which agree. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RefValue.run_net m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
